-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x3 : Shape := ⟨3, ![64, 4096, 3]⟩
abbrev S64x2 : Shape := ⟨2, ![64, 2]⟩
abbrev S_ : Shape := ⟨0, ![]⟩

class Facts : Prop where
  bcast_S_S64x4096x3 : S_.BroadcastsInDim S64x4096x3 (![] : Fin 0 → Fin S64x4096x3.rank)
  reducesTo_S64x4096x3_S_d0_1_2 : S64x4096x3.ReducesTo [0, 1, 2] S_
  h_S_ : 0 < S_.numel
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x4096x3 .f32) (main_arg1 : FVec F S64x2 .f32) (main_arg2 : FVec F S64x2 .f32) : IVec S_ 1 :=
  let main_v0 : FVec F S64x4096x3 .f32 := Host.absf main_arg0
  let main_cst : FVec F S_ .f32 := constant S_ .f32 0x7F800000#32
  let main_v1 : FVec F S64x4096x3 .f32 := broadcastInDim S64x4096x3 ![] bcast_S_S64x4096x3 main_cst
  let main_v2 : IVec S64x4096x3 1 := cmpf .olt main_v0 main_v1
  let main_c : IVec S_ 1 := constantI S_ 1 1#1
  let main_v3 : IVec S_ 1 := (fun x v => Host.reduce IntOp.andi x v reducesTo_S64x4096x3_S_d0_1_2 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  main_v13
-- ==== Kernel.lean ====
abbrev S64x4096x3 : Shape := ⟨3, ![64, 4096, 3]⟩
abbrev S64x2 : Shape := ⟨2, ![64, 2]⟩
abbrev S64x4096x1 : Shape := ⟨3, ![64, 4096, 1]⟩
abbrev S64x4096 : Shape := ⟨2, ![64, 4096]⟩
abbrev S64x1 : Shape := ⟨2, ![64, 1]⟩
abbrev S64x64 : Shape := ⟨2, ![64, 64]⟩
abbrev S8x4096 : Shape := ⟨2, ![8, 4096]⟩
abbrev S8x64 : Shape := ⟨2, ![8, 64]⟩
abbrev S1x4096 : Shape := ⟨2, ![1, 4096]⟩
abbrev S4096 : Shape := ⟨1, ![4096]⟩
abbrev S64 : Shape := ⟨1, ![64]⟩
abbrev S1x64 : Shape := ⟨2, ![1, 64]⟩

abbrev nBuf : Space → Nat
  | .hbm => 14
  | .vmem => 12
  | .smem => 0
  | _ => 0

abbrev bufTy : (tb : Table) → Fin (tcTables nBuf tb) → BufTy
  | .hbm, ⟨0, _⟩ => ⟨S64x4096x3, .f32⟩
  | .hbm, ⟨1, _⟩ => ⟨S64x2, .f32⟩
  | .hbm, ⟨2, _⟩ => ⟨S64x2, .f32⟩
  | .hbm, ⟨3, _⟩ => ⟨S64x4096x1, .f32⟩
  | .hbm, ⟨4, _⟩ => ⟨S64x4096, .f32⟩
  | .hbm, ⟨5, _⟩ => ⟨S64x4096x1, .f32⟩
  | .hbm, ⟨6, _⟩ => ⟨S64x4096, .f32⟩
  | .hbm, ⟨7, _⟩ => ⟨S64x4096x1, .f32⟩
  | .hbm, ⟨8, _⟩ => ⟨S64x4096, .f32⟩
  | .hbm, ⟨9, _⟩ => ⟨S64x1, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x64, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | .local _ .vmem, ⟨10, _⟩ => ⟨S8x64, .f32⟩
  | .local _ .vmem, ⟨11, _⟩ => ⟨S8x64, .f32⟩
  | _, _ => ⟨S64x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S64x4096x3_S64x4096x1_0_0_0 : S64x4096x3.Slices ![0, 0, 0] S64x4096x1
  shapeCasts_S64x4096x1_S64x4096 : S64x4096x1.ShapeCasts S64x4096
  slices_S64x4096x3_S64x4096x1_0_0_1 : S64x4096x3.Slices ![0, 0, 1] S64x4096x1
  slices_S64x4096x3_S64x4096x1_0_0_2 : S64x4096x3.Slices ![0, 0, 2] S64x4096x1
  slices_S64x2_S64x1_0_0 : S64x2.Slices ![0, 0] S64x1
  slices_S64x2_S64x1_0_1 : S64x2.Slices ![0, 1] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S8x4096_S1x4096_0_0 : ∀ a, (![0, 0] : Fin 2 → Nat) a + S1x4096.size a ≤ S8x4096.size a
  h_S1x4096 : 0 < S1x4096.numel
  shapeCasts_S1x4096_S4096 : S1x4096.ShapeCasts S4096
  shapeCasts_S4096_S1x4096 : S4096.ShapeCasts S1x4096
  broadcasts_S64x1_S64x4096 : S64x1.Broadcasts S64x4096
  broadcasts_S1x4096_S64x4096 : S1x4096.Broadcasts S64x4096
  reduces_S64x4096_S64 : S64x4096.Reduces [1] S64
  shapeCasts_S64_S1x64 : S64.ShapeCasts S1x64
  inb_S8x4096_S1x4096_1_0 : ∀ a, (![1, 0] : Fin 2 → Nat) a + S1x4096.size a ≤ S8x4096.size a
  inb_S8x4096_S1x4096_2_0 : ∀ a, (![2, 0] : Fin 2 → Nat) a + S1x4096.size a ≤ S8x4096.size a
  inb_S8x4096_S1x4096_3_0 : ∀ a, (![3, 0] : Fin 2 → Nat) a + S1x4096.size a ≤ S8x4096.size a
  inb_S8x4096_S1x4096_4_0 : ∀ a, (![4, 0] : Fin 2 → Nat) a + S1x4096.size a ≤ S8x4096.size a
  inb_S8x4096_S1x4096_5_0 : ∀ a, (![5, 0] : Fin 2 → Nat) a + S1x4096.size a ≤ S8x4096.size a
  inb_S8x4096_S1x4096_6_0 : ∀ a, (![6, 0] : Fin 2 → Nat) a + S1x4096.size a ≤ S8x4096.size a
  inb_S8x4096_S1x4096_7_0 : ∀ a, (![7, 0] : Fin 2 → Nat) a + S1x4096.size a ≤ S8x4096.size a
  concatenates_S1x64_S1x64_S1x64_S1x64_S1x64_S1x64_S1x64_S1x64_S8x64_d0 : Shape.Concatenates [S1x64, S1x64, S1x64, S1x64, S1x64, S1x64, S1x64, S1x64] S8x64 0
  inb_S8x64_S8x64_0_0 : ∀ a, (![0, 0] : Fin 2 → Nat) a + S8x64.size a ≤ S8x64.size a
  h_S8x64 : 0 < S8x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S64x4096.size a
  hwx0_0 : ∀ i : grid0.Coords, EltTy.bits .f32 = 32 ∨ (Rect.block (s := S64x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S64x4096.size a
  hwx0_1 : ∀ i : grid0.Coords, EltTy.bits .f32 = 32 ∨ (Rect.block (s := S64x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S64x4096.size a
  hwx0_2 : ∀ i : grid0.Coords, EltTy.bits .f32 = 32 ∨ (Rect.block (s := S64x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S64x64.size a
  hwx0_7 : ∀ i : grid0.Coords, EltTy.bits .f32 = 32 ∨ (Rect.block (s := S64x64) S8x64.size (cc0_transform_7 i) (hinb0_7 i)).WholeWords (EltTy.packing .f32)

variable [Facts₀]

abbrev win0_0 : Pipeline.Window sig grid0 :=
  Pipeline.Window.ofSpec (Memref.whole main_v1) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S8x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x4096x3 : Shape := ⟨3, ![64, 4096, 3]⟩
abbrev S64x2 : Shape := ⟨2, ![64, 2]⟩
abbrev S64x4096x2 : Shape := ⟨3, ![64, 4096, 2]⟩
abbrev S64x4096x1 : Shape := ⟨3, ![64, 4096, 1]⟩
abbrev S64x4096 : Shape := ⟨2, ![64, 4096]⟩
abbrev S1x64x1x2 : Shape := ⟨4, ![1, 64, 1, 2]⟩
abbrev S64x1x4096x2 : Shape := ⟨4, ![64, 1, 4096, 2]⟩
abbrev S64x64x4096x2 : Shape := ⟨4, ![64, 64, 4096, 2]⟩
abbrev S_ : Shape := ⟨0, ![]⟩
abbrev S64x64x4096 : Shape := ⟨3, ![64, 64, 4096]⟩
abbrev S64x1x4096 : Shape := ⟨3, ![64, 1, 4096]⟩
abbrev S64x64 : Shape := ⟨2, ![64, 64]⟩

abbrev nBuf : Space → Nat
  | .hbm => 35
  | .vmem => 0
  | .smem => 0
  | _ => 0

abbrev bufTy : (tb : Table) → Fin (tcTables nBuf tb) → BufTy
  | .hbm, ⟨0, _⟩ => ⟨S64x4096x3, .f32⟩
  | .hbm, ⟨1, _⟩ => ⟨S64x2, .f32⟩
  | .hbm, ⟨2, _⟩ => ⟨S64x2, .f32⟩
  | .hbm, ⟨3, _⟩ => ⟨S64x4096x2, .f32⟩
  | .hbm, ⟨4, _⟩ => ⟨S64x4096x1, .f32⟩
  | .hbm, ⟨5, _⟩ => ⟨S64x4096, .f32⟩
  | .hbm, ⟨6, _⟩ => ⟨S64x2, .f32⟩
  | .hbm, ⟨7, _⟩ => ⟨S1x64x1x2, .f32⟩
  | .hbm, ⟨8, _⟩ => ⟨S64x1x4096x2, .f32⟩
  | .hbm, ⟨9, _⟩ => ⟨S64x64x4096x2, .f32⟩
  | .hbm, ⟨10, _⟩ => ⟨S64x64x4096x2, .f32⟩
  | .hbm, ⟨11, _⟩ => ⟨S64x64x4096x2, .f32⟩
  | .hbm, ⟨12, _⟩ => ⟨S64x64x4096x2, .f32⟩
  | .hbm, ⟨13, _⟩ => ⟨S1x64x1x2, .f32⟩
  | .hbm, ⟨14, _⟩ => ⟨S64x64x4096x2, .f32⟩
  | .hbm, ⟨15, _⟩ => ⟨S64x64x4096x2, .f32⟩
  | .hbm, ⟨16, _⟩ => ⟨S64x64x4096x2, .i1⟩
  | .hbm, ⟨17, _⟩ => ⟨S_, .f32⟩
  | .hbm, ⟨18, _⟩ => ⟨S64x64x4096x2, .f32⟩
  | .hbm, ⟨19, _⟩ => ⟨S64x64x4096x2, .f32⟩
  | .hbm, ⟨20, _⟩ => ⟨S_, .f32⟩
  | .hbm, ⟨21, _⟩ => ⟨S64x64x4096, .f32⟩
  | .hbm, ⟨22, _⟩ => ⟨S64x4096, .i1⟩
  | .hbm, ⟨23, _⟩ => ⟨S64x4096, .f32⟩
  | .hbm, ⟨24, _⟩ => ⟨S_, .f32⟩
  | .hbm, ⟨25, _⟩ => ⟨S_, .f32⟩
  | .hbm, ⟨26, _⟩ => ⟨S64x4096, .f32⟩
  | .hbm, ⟨27, _⟩ => ⟨S64x4096, .f32⟩
  | .hbm, ⟨28, _⟩ => ⟨S64x1x4096, .f32⟩
  | .hbm, ⟨29, _⟩ => ⟨S64x64x4096, .f32⟩
  | .hbm, ⟨30, _⟩ => ⟨S64x64x4096, .f32⟩
  | .hbm, ⟨31, _⟩ => ⟨S64x64x4096, .f32⟩
  | .hbm, ⟨32, _⟩ => ⟨S64x64x4096, .f32⟩
  | .hbm, ⟨33, _⟩ => ⟨S_, .f32⟩
  | .hbm, ⟨34, _⟩ => ⟨S64x64, .f32⟩
  | _, _ => ⟨S64x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_cst : Ref sig .tc := ⟨.hbm, 17, rfl⟩
abbrev main_call0_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  slices_S64x4096x3_S64x4096x2_0_0_0 : S64x4096x3.Slices ![0, 0, 0] S64x4096x2
  slices_S64x4096x3_S64x4096x1_0_0_2 : S64x4096x3.Slices ![0, 0, 2] S64x4096x1
  shapeCasts_S64x4096x1_S64x4096 : S64x4096x1.ShapeCasts S64x4096
  bcast_S64x2_S1x64x1x2_1_3 : S64x2.BroadcastsInDim S1x64x1x2 (![1, 3] : Fin 2 → Fin S1x64x1x2.rank)
  bcast_S64x4096x2_S64x1x4096x2_0_2_3 : S64x4096x2.BroadcastsInDim S64x1x4096x2 (![0, 2, 3] : Fin 3 → Fin S64x1x4096x2.rank)
  bcast_S1x64x1x2_S64x64x4096x2_0_1_2_3 : S1x64x1x2.BroadcastsInDim S64x64x4096x2 (![0, 1, 2, 3] : Fin 4 → Fin S64x64x4096x2.rank)
  bcast_S64x1x4096x2_S64x64x4096x2_0_1_2_3 : S64x1x4096x2.BroadcastsInDim S64x64x4096x2 (![0, 1, 2, 3] : Fin 4 → Fin S64x64x4096x2.rank)
  bcast_S_S64x64x4096x2 : S_.BroadcastsInDim S64x64x4096x2 (![] : Fin 0 → Fin S64x64x4096x2.rank)
  reducesTo_S64x64x4096x2_S64x64x4096_d3 : S64x64x4096x2.ReducesTo [3] S64x64x4096
  h_S_ : 0 < S_.numel
  bcast_S_S64x4096 : S_.BroadcastsInDim S64x4096 (![] : Fin 0 → Fin S64x4096.rank)
  bcast_S64x4096_S64x1x4096_0_2 : S64x4096.BroadcastsInDim S64x1x4096 (![0, 2] : Fin 2 → Fin S64x1x4096.rank)
  bcast_S64x1x4096_S64x64x4096_0_1_2 : S64x1x4096.BroadcastsInDim S64x64x4096 (![0, 1, 2] : Fin 3 → Fin S64x64x4096.rank)
  reducesTo_S64x64x4096_S64x64_d2 : S64x64x4096.ReducesTo [2] S64x64

variable [Facts₀]

class Facts : Prop extends Facts₀ where

variable [Facts]
-- ==== Proof.Spec.lean ====
/-
  The function both programs compute, over the extended reals.

  For a batch row `b`, an element `e` and a sample `n` the exponent is
      q(b, e, n) = (c[e,0] - x[b,n,0])^2 * s[e,0]^2 + (c[e,1] - x[b,n,1])^2 * s[e,1]^2 + x[b,n,2]^2,
  every square written as a product of a value with itself, and the result at `(b, e)` is the sum over the
  4096 samples of `exp (-q)`. The kernel spells the negation `0 - q`; the reference spells it `-q`, adds the
  two weighted squares into a zero (a sum over the axis of size two starting from `0`) and starts its sum over
  the samples from `0` too. On the extended reals `0 + a = a` and `0 - a = -a` hold for every `a`,
  infinities included, so neither side needs the inputs to be finite.
-/
import Idealize.ShloMosaic.PureOps.Ideal
import Idealize.ShloMosaic.Lib.ValueIdx

noncomputable section

namespace Cert.Rbf

open Idealize.ShloMosaic Idealize.ShloMosaic.ValueIdx

/-- The exponent's magnitude at one sample: the two centred, sharpened squares and the third channel's square. -/
def quad (c0 c1 s0 s1 a b z : EReal) : EReal :=
  (c0 - a) * (c0 - a) * (s0 * s0) + (c1 - b) * (c1 - b) * (s1 * s1) + z * z

/-- One sample's contribution, in the kernel's spelling of the negation. -/
def term (c0 c1 s0 s1 a b z : EReal) : EReal := Ideal.exp (0 - quad c0 c1 s0 s1 a b z)

/-- The result at batch row `b` and element `e`: the sum of the contributions of the 4096 samples of row `b`. -/
def rbfAt (x : FVec Ideal ⟨3, ![64, 4096, 3]⟩ .f32) (cen shp : FVec Ideal ⟨2, ![64, 2]⟩ .f32) (b e : Fin 64) : EReal :=
  ∑ n : Fin 4096, term (cen (ix2 e (0 : Fin 2))) (cen (ix2 e (1 : Fin 2))) (shp (ix2 e (0 : Fin 2))) (shp (ix2 e (1 : Fin 2)))
    (x (ix3 b n (0 : Fin 3))) (x (ix3 b n (1 : Fin 3))) (x (ix3 b n (2 : Fin 3)))

/-- The whole result array. -/
def rbf (x : FVec Ideal ⟨3, ![64, 4096, 3]⟩ .f32) (cen shp : FVec Ideal ⟨2, ![64, 2]⟩ .f32) : FVec Ideal ⟨2, ![64, 64]⟩ .f32 :=
  fun j => rbfAt x cen shp (j 0) (j 1)

theorem rbf_ix2 (x : FVec Ideal ⟨3, ![64, 4096, 3]⟩ .f32) (cen shp : FVec Ideal ⟨2, ![64, 2]⟩ .f32) (b e : Fin 64) :
    rbf x cen shp (ix2 b e) = rbfAt x cen shp b e := rfl

/-- The reference's spelling of one contribution: the two weighted squares summed from zero, the third channel's square
    added, the whole negated. -/
theorem term_of_neg (c0 c1 s0 s1 a b z : EReal) :
    Ideal.exp (-((0 + ((c0 - a) * (c0 - a) * (s0 * s0) + (c1 - b) * (c1 - b) * (s1 * s1))) + z * z)) = term c0 c1 s0 s1 a b z := by
  unfold term quad
  rw [zero_add, zero_sub]

end Cert.Rbf

end
-- ==== Proof.KernelRow.lean ====
/-
  One batch row of the kernel's block, read at an index.

  Inside a grid point the kernel treats its eight batch rows alike: from the four resident columns (the two centre
  coordinates and the two sharpnesses of the 64 elements, each a 64 x 1 column) and the row's three channel vectors
  (each 1 x 4096) it forms the 64 x 4096 matrix of exponents, exponentiates, and sums along the samples. `rowSums` is
  that computation as one term; at the extended reals its entry `e` is the sum over the samples `n` of the contribution
  `Cert.Rbf.term` of the element's centre and sharpness and the row's sample `n`.
-/
import proofs.«100873_j34883724378859_1_alg».proof.KernelIdeal
import proofs.«100873_j34883724378859_1_alg».proof.Proof.Gen.KernelIdeal
import proofs.«100873_j34883724378859_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {F : FTy → Type} [FloatOps F]

/-- The exponentials of one batch row: entry `(e, n)` is the contribution of element `e` and sample `n`. -/
def rowExp (c0 s0 c1 s1 : Vec F S64x1 .f32) (a b z : Vec F S1x4096 .f32) : Vec F S64x4096 .f32 :=
  (exp (subf (broadcast S64x4096 (Scalar.ofBits .f32 0x00000000#32)) (addf (addf (mulf (mulf (subf (broadcastTo S64x4096 (shapeCast S64x1 c0 shapeCasts_S64x1_S64x1) broadcasts_S64x1_S64x4096) (broadcastTo S64x4096 (shapeCast S1x4096 (shapeCast S4096 a shapeCasts_S1x4096_S4096) shapeCasts_S4096_S1x4096) broadcasts_S1x4096_S64x4096)) (subf (broadcastTo S64x4096 (shapeCast S64x1 c0 shapeCasts_S64x1_S64x1) broadcasts_S64x1_S64x4096) (broadcastTo S64x4096 (shapeCast S1x4096 (shapeCast S4096 a shapeCasts_S1x4096_S4096) shapeCasts_S4096_S1x4096) broadcasts_S1x4096_S64x4096))) (broadcastTo S64x4096 (mulf (shapeCast S64x1 s0 shapeCasts_S64x1_S64x1) (shapeCast S64x1 s0 shapeCasts_S64x1_S64x1)) broadcasts_S64x1_S64x4096)) (mulf (mulf (subf (broadcastTo S64x4096 (shapeCast S64x1 c1 shapeCasts_S64x1_S64x1) broadcasts_S64x1_S64x4096) (broadcastTo S64x4096 (shapeCast S1x4096 (shapeCast S4096 b shapeCasts_S1x4096_S4096) shapeCasts_S4096_S1x4096) broadcasts_S1x4096_S64x4096)) (subf (broadcastTo S64x4096 (shapeCast S64x1 c1 shapeCasts_S64x1_S64x1) broadcasts_S64x1_S64x4096) (broadcastTo S64x4096 (shapeCast S1x4096 (shapeCast S4096 b shapeCasts_S1x4096_S4096) shapeCasts_S4096_S1x4096) broadcasts_S1x4096_S64x4096))) (broadcastTo S64x4096 (mulf (shapeCast S64x1 s1 shapeCasts_S64x1_S64x1) (shapeCast S64x1 s1 shapeCasts_S64x1_S64x1)) broadcasts_S64x1_S64x4096))) (broadcastTo S64x4096 (shapeCast S1x4096 (mulf (shapeCast S4096 z shapeCasts_S1x4096_S4096) (shapeCast S4096 z shapeCasts_S1x4096_S4096)) shapeCasts_S4096_S1x4096) broadcasts_S1x4096_S64x4096))))

/-- The 64 sums of one batch row, laid out as a 1 x 64 row. -/
def rowSums (c0 s0 c1 s1 : Vec F S64x1 .f32) (a b z : Vec F S1x4096 .f32) : Vec F S1x64 .f32 :=
  shapeCast S1x64 (multiReduction .add [1] S64 (rowExp c0 s0 c1 s1 a b z) 0x00000000#32 reduces_S64x4096_S64 (.inl rfl) rfl) shapeCasts_S64_S1x64

/-- Entry `(e, n)` of the exponentials, at the extended reals. -/
theorem rowExp_apply (c0 s0 c1 s1 : FVec Ideal S64x1 .f32) (a b z : FVec Ideal S1x4096 .f32) (e : Fin 64) (n : Fin 4096) :
    rowExp (F := Ideal) c0 s0 c1 s1 a b z (ix2 e n)
      = Cert.Rbf.term (c0 (ix2 e (0 : Fin 1))) (c1 (ix2 e (0 : Fin 1))) (s0 (ix2 e (0 : Fin 1))) (s1 (ix2 e (0 : Fin 1)))
          (a (ix2 (0 : Fin 1) n)) (b (ix2 (0 : Fin 1) n)) (z (ix2 (0 : Fin 1) n)) := by
  unfold rowExp Cert.Rbf.term Cert.Rbf.quad
  simp only [shapeCast_self, shapeCast_shapeCast]
  show Ideal.exp _ = _
  simp only [subf_apply, addf_apply, mulf_apply, broadcast_apply, broadcastTo_a1_ab_apply, broadcastTo_1b_ab_apply,
    shapeCast_a_1a_apply, shapeCast_1a_a_apply, Ideal.ofBits_def, Ideal.ofBits_zero_f32]

/-- Entry `e` of a row's sums, at the extended reals: the sum over the 4096 samples of the contributions. The lane sum starts
    from the zero word, which is the sum's neutral element, so no initial value appears. -/
theorem rowSums_apply (c0 s0 c1 s1 : FVec Ideal S64x1 .f32) (a b z : FVec Ideal S1x4096 .f32) (u : Fin 1) (e : Fin 64) :
    rowSums (F := Ideal) c0 s0 c1 s1 a b z (ix2 u e)
      = ∑ n : Fin 4096, Cert.Rbf.term (c0 (ix2 e (0 : Fin 1))) (c1 (ix2 e (0 : Fin 1))) (s0 (ix2 e (0 : Fin 1))) (s1 (ix2 e (0 : Fin 1)))
          (a (ix2 (0 : Fin 1) n)) (b (ix2 (0 : Fin 1) n)) (z (ix2 (0 : Fin 1) n)) := by
  unfold rowSums
  refine (shapeCast_a_1a_apply _ shapeCasts_S64_S1x64 u e).trans ?_
  refine (Ideal.multiReduction_add_single (rowExp (F := Ideal) c0 s0 c1 s1 a b z) 0x00000000#32 reduces_S64x4096_S64 (.inl rfl) rfl (ix1 e)).trans ?_
  refine Finset.sum_congr rfl fun n _ => ?_
  have hidx : reduces_S64x4096_S64.lift (ix1 e) n = ix2 e n :=
    funext fun ax => Fin.ext (by match ax with | ⟨0, _⟩ => rfl | ⟨1, _⟩ => rfl)
  rw [hidx]
  exact rowExp_apply c0 s0 c1 s1 a b z e n

end Cert.KernelIdeal.RowValue

end
-- ==== Proof.KernelBlocks.lean ====
/-
  From the kernel's blocks to its result array.

  The grid has eight points; point `t` works on batch rows `8 t .. 8 t + 7`: it reads those rows of the three channel
  arrays (each a 64 x 4096 array cut into 8 x 4096 blocks) and the four resident 64 x 1 columns, and writes the 8 x 64
  block `t` of the 64 x 64 result. Row `p` of what it writes is the row sums (`RowValue.rowSums`) of the columns and of row
  `p` of the three channel blocks, so entry `(p, e)` of the block is the sum over the samples of the contributions of
  element `e` and batch row `8 t + p`; the eight blocks tile the result, which therefore is `Cert.Rbf.rbf` of the
  arguments.
-/
import proofs.«100873_j34883724378859_1_alg».proof.Proof.Gen.KernelIdeal.Value
import proofs.«100873_j34883724378859_1_alg».proof.Proof.KernelRow
import Idealize.ShloMosaic.Lib.StableHlo.Run

noncomputable section

namespace Cert.KernelIdeal.BlockValue

open Cert.KernelIdeal Cert.KernelIdeal.Gen Cert.KernelIdeal.RowValue
open Idealize.ShloMosaic Idealize.ShloMosaic.TcCoe Idealize.SL.Sem Idealize.ShloMosaic.ValueIdx
open Idealize.ShloMosaic.Pipeline (Dat)

/-- A load of row `k` of an 8 x 4096 block reads, at `(0, n)`, the block at `(k, n)`. -/
theorem ld_row (x : Vec Ideal S8x4096 .f32) (k : ℕ) (inb : ∀ a, (![k, 0] : Fin 2 → Nat) a + S1x4096.size a ≤ S8x4096.size a)
    (p : Fin 8) (hp : p.val = k) (n : Fin 4096) :
    View.ld x (Rect.unit (s := S8x4096) ![k, 0] S1x4096.size inb) (ix2 (0 : Fin 1) n) = x (ix2 p n) := by
  show x ((Rect.unit (s := S8x4096) ![k, 0] S1x4096.size inb).emb (ix2 (0 : Fin 1) n)) = _
  refine congrArg x (funext fun a => Fin.ext ?_)
  match a with
  | ⟨0, _⟩ => show k + 1 * 0 = p.val; omega
  | ⟨1, _⟩ => show 0 + 1 * n.val = n.val; omega

/-- A load of a whole 64 x 1 column reads the column. -/
theorem ld_col (x : Vec Ideal S64x1 .f32) (e : Fin 64) : View.ld x r0_0 (ix2 e (0 : Fin 1)) = x (ix2 e (0 : Fin 1)) := by
  show x (r0_0.emb (ix2 e (0 : Fin 1))) = _
  refine congrArg x (funext fun a => Fin.ext ?_)
  match a with
  | ⟨0, _⟩ => show 0 + 1 * e.val = e.val; omega
  | ⟨1, _⟩ => rfl

/-- Entry `(p, e)` of the 8 x 64 block the body leaves, from the point's seven input blocks: the sum over the samples of
    the contributions of element `e` (its centre and sharpness from the four columns) and row `p` of the channel blocks. -/
theorem block_apply (x0 x1 x2 : Vec Ideal S8x4096 .f32) (x3 x4 x5 x6 : Vec Ideal S64x1 .f32) (p : Fin 8) (e : Fin 64) :
    out0_7 (F := Ideal) x0 x1 x2 x3 x4 x5 x6 (ix2 p e)
      = ∑ n : Fin 4096, Cert.Rbf.term (x3 (ix2 e (0 : Fin 1))) (x4 (ix2 e (0 : Fin 1))) (x5 (ix2 e (0 : Fin 1))) (x6 (ix2 e (0 : Fin 1)))
          (x0 (ix2 p n)) (x1 (ix2 p n)) (x2 (ix2 p n)) := by
  unfold out0_7
  rw [Value.canon7_eq]
  have hsel : Value.csel7_0 (ix2 p e) = p := Fin.ext rfl
  have hix : Value.ix7_0 (ix2 p e) = ix2 (0 : Fin 1) e :=
    funext fun a => Fin.ext (by match a with | ⟨0, _⟩ => rfl | ⟨1, _⟩ => rfl)
  dsimp only [Value.E7]
  rw [hsel, hix]
  match p with
  | ⟨0, _⟩ =>
    refine (rowSums_apply (View.ld x3 r0_0) (View.ld x5 r0_0) (View.ld x4 r0_0) (View.ld x6 r0_0) (View.ld x0 r0_1) (View.ld x1 r0_1) (View.ld x2 r0_1) 0 e).trans ?_
    refine Finset.sum_congr rfl fun n _ => ?_
    rw [ld_col x3 e, ld_col x4 e, ld_col x5 e, ld_col x6 e, ld_row x0 0 _ ⟨0, by omega⟩ rfl n, ld_row x1 0 _ ⟨0, by omega⟩ rfl n, ld_row x2 0 _ ⟨0, by omega⟩ rfl n]
  | ⟨1, _⟩ =>
    refine (rowSums_apply (View.ld x3 r0_0) (View.ld x5 r0_0) (View.ld x4 r0_0) (View.ld x6 r0_0) (View.ld x0 r0_2) (View.ld x1 r0_2) (View.ld x2 r0_2) 0 e).trans ?_
    refine Finset.sum_congr rfl fun n _ => ?_
    rw [ld_col x3 e, ld_col x4 e, ld_col x5 e, ld_col x6 e, ld_row x0 1 _ ⟨1, by omega⟩ rfl n, ld_row x1 1 _ ⟨1, by omega⟩ rfl n, ld_row x2 1 _ ⟨1, by omega⟩ rfl n]
  | ⟨2, _⟩ =>
    refine (rowSums_apply (View.ld x3 r0_0) (View.ld x5 r0_0) (View.ld x4 r0_0) (View.ld x6 r0_0) (View.ld x0 r0_3) (View.ld x1 r0_3) (View.ld x2 r0_3) 0 e).trans ?_
    refine Finset.sum_congr rfl fun n _ => ?_
    rw [ld_col x3 e, ld_col x4 e, ld_col x5 e, ld_col x6 e, ld_row x0 2 _ ⟨2, by omega⟩ rfl n, ld_row x1 2 _ ⟨2, by omega⟩ rfl n, ld_row x2 2 _ ⟨2, by omega⟩ rfl n]
  | ⟨3, _⟩ =>
    refine (rowSums_apply (View.ld x3 r0_0) (View.ld x5 r0_0) (View.ld x4 r0_0) (View.ld x6 r0_0) (View.ld x0 r0_4) (View.ld x1 r0_4) (View.ld x2 r0_4) 0 e).trans ?_
    refine Finset.sum_congr rfl fun n _ => ?_
    rw [ld_col x3 e, ld_col x4 e, ld_col x5 e, ld_col x6 e, ld_row x0 3 _ ⟨3, by omega⟩ rfl n, ld_row x1 3 _ ⟨3, by omega⟩ rfl n, ld_row x2 3 _ ⟨3, by omega⟩ rfl n]
  | ⟨4, _⟩ =>
    refine (rowSums_apply (View.ld x3 r0_0) (View.ld x5 r0_0) (View.ld x4 r0_0) (View.ld x6 r0_0) (View.ld x0 r0_5) (View.ld x1 r0_5) (View.ld x2 r0_5) 0 e).trans ?_
    refine Finset.sum_congr rfl fun n _ => ?_
    rw [ld_col x3 e, ld_col x4 e, ld_col x5 e, ld_col x6 e, ld_row x0 4 _ ⟨4, by omega⟩ rfl n, ld_row x1 4 _ ⟨4, by omega⟩ rfl n, ld_row x2 4 _ ⟨4, by omega⟩ rfl n]
  | ⟨5, _⟩ =>
    refine (rowSums_apply (View.ld x3 r0_0) (View.ld x5 r0_0) (View.ld x4 r0_0) (View.ld x6 r0_0) (View.ld x0 r0_6) (View.ld x1 r0_6) (View.ld x2 r0_6) 0 e).trans ?_
    refine Finset.sum_congr rfl fun n _ => ?_
    rw [ld_col x3 e, ld_col x4 e, ld_col x5 e, ld_col x6 e, ld_row x0 5 _ ⟨5, by omega⟩ rfl n, ld_row x1 5 _ ⟨5, by omega⟩ rfl n, ld_row x2 5 _ ⟨5, by omega⟩ rfl n]
  | ⟨6, _⟩ =>
    refine (rowSums_apply (View.ld x3 r0_0) (View.ld x5 r0_0) (View.ld x4 r0_0) (View.ld x6 r0_0) (View.ld x0 r0_7) (View.ld x1 r0_7) (View.ld x2 r0_7) 0 e).trans ?_
    refine Finset.sum_congr rfl fun n _ => ?_
    rw [ld_col x3 e, ld_col x4 e, ld_col x5 e, ld_col x6 e, ld_row x0 6 _ ⟨6, by omega⟩ rfl n, ld_row x1 6 _ ⟨6, by omega⟩ rfl n, ld_row x2 6 _ ⟨6, by omega⟩ rfl n]
  | ⟨7, _⟩ =>
    refine (rowSums_apply (View.ld x3 r0_0) (View.ld x5 r0_0) (View.ld x4 r0_0) (View.ld x6 r0_0) (View.ld x0 r0_8) (View.ld x1 r0_8) (View.ld x2 r0_8) 0 e).trans ?_
    refine Finset.sum_congr rfl fun n _ => ?_
    rw [ld_col x3 e, ld_col x4 e, ld_col x5 e, ld_col x6 e, ld_row x0 7 _ ⟨7, by omega⟩ rfl n, ld_row x1 7 _ ⟨7, by omega⟩ rfl n, ld_row x2 7 _ ⟨7, by omega⟩ rfl n]

/-! ## The arrays as the region finds them, and the blocks the windows read -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = t.val ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = t.val ∧ win0_7.index t (1 : Fin 2) = 0 :=
  (by decide +kernel : ∀ t : Fin grid0.N, _)

/-- A channel of the samples, as the host operations before the region lay it out, at `(r, n)`. -/
theorem chan_apply (x : FVec Ideal S64x4096x3 .f32) (k : ℕ) (hs : S64x4096x3.Slices ![0, 0, k] S64x4096x1) (k3 : Fin 3) (hk : k3.val = k)
    (r : Fin 64) (n : Fin 4096) :
    shapeCast S64x4096 (extractStridedSlice S64x4096x1 ![0, 0, k] x hs) shapeCasts_S64x4096x1_S64x4096 (ix2 r n) = x (ix3 r n k3) := by
  refine (shapeCast_apply _ _ (ix2 r n) (ix3 r n (0 : Fin 1)) ?_).trans ?_
  · rw [Shape.rowMajor_val_three, Shape.rowMajor_val_two]
    show (r.val * 4096 + n.val) * 1 + 0 = r.val * 4096 + n.val
    omega
  refine extractStridedSlice_apply _ x _ (ix3 r n (0 : Fin 1)) (ix3 r n k3) fun a => ?_
  match a with
  | ⟨0, _⟩ => show r.val = 0 + r.val; omega
  | ⟨1, _⟩ => show n.val = 0 + n.val; omega
  | ⟨2, _⟩ => show k3.val = k + 0; omega

/-- A column of a `[64, 2]` argument at `(e, 0)`. -/
theorem col_apply (v : FVec Ideal S64x2 .f32) (k : ℕ) (hs : S64x2.Slices ![0, k] S64x1) (k2 : Fin 2) (hk : k2.val = k) (e : Fin 64) :
    extractStridedSlice S64x1 ![0, k] v hs (ix2 e (0 : Fin 1)) = v (ix2 e k2) := by
  refine extractStridedSlice_apply _ v _ (ix2 e (0 : Fin 1)) (ix2 e k2) fun a => ?_
  match a with
  | ⟨0, _⟩ => show e.val = 0 + e.val; omega
  | ⟨1, _⟩ => show k2.val = k + 0; omega

section Region

variable (m : (ℓ : Loc nD τ sig) → Buf (Elt Ideal) ℓ) (ρ : Dev nD → PrngReg)

/-- Channel 0 as the region finds it: the slice of the argument at channel 0, its unit axis dropped. -/
theorem V_x0_eq (c : Dev nD) :
    (V m c main_v1 : S64x4096.Idx → EReal)
      = shapeCast S64x4096 (extractStridedSlice S64x4096x1 ![0, 0, 0] (m ((c : Thread nD τ).loc main_arg0)) slices_S64x4096x3_S64x4096x1_0_0_0) shapeCasts_S64x4096x1_S64x4096 := by
  dsimp only [Gen.V, Gen.hostOps0]; after_results; rfl

/-- Window 0's block at point `t`, at `(p, n)`, is the argument at batch row `8 t + p`, sample `n`, channel 0. -/
theorem iblk_x0 (c : Dev nD) (t : Fin cfg0.N) (p : Fin 8) (n : Fin 4096) (r : Fin 64) (hr : r.val = 8 * t.val + p.val) :
    (iblk m c 0 t : Vec Ideal S8x4096 .f32) (ix2 p n) = ((m ((c : Thread nD τ).loc main_arg0)) : S64x4096x3.Idx → EReal) (ix3 r n (0 : Fin 3)) := by
  obtain ⟨h0, h1⟩ := idx_w0 t
  unfold iblk
  rw [View.read_apply]
  show V m c main_v1 _ = _
  refine (congrArg (V m c main_v1) (?_ : _ = ix2 r n)).trans
    ((congrFun (V_x0_eq m c) (ix2 r n)).trans (chan_apply _ 0 _ (0 : Fin 3) rfl r n))
  funext a
  apply Fin.ext
  match a with
  | ⟨0, _⟩ => show win0_0.index t (0 : Fin 2) * 8 + 1 * p.val = r.val; rw [h0, hr]; omega
  | ⟨1, _⟩ => show win0_0.index t (1 : Fin 2) * 4096 + 1 * n.val = n.val; rw [h1]; omega

/-- Channel 1 as the region finds it: the slice of the argument at channel 1, its unit axis dropped. -/
theorem V_x1_eq (c : Dev nD) :
    (V m c main_v3 : S64x4096.Idx → EReal)
      = shapeCast S64x4096 (extractStridedSlice S64x4096x1 ![0, 0, 1] (m ((c : Thread nD τ).loc main_arg0)) slices_S64x4096x3_S64x4096x1_0_0_1) shapeCasts_S64x4096x1_S64x4096 := by
  dsimp only [Gen.V, Gen.hostOps0]; after_results; rfl

/-- Window 1's block at point `t`, at `(p, n)`, is the argument at batch row `8 t + p`, sample `n`, channel 1. -/
theorem iblk_x1 (c : Dev nD) (t : Fin cfg0.N) (p : Fin 8) (n : Fin 4096) (r : Fin 64) (hr : r.val = 8 * t.val + p.val) :
    (iblk m c 1 t : Vec Ideal S8x4096 .f32) (ix2 p n) = ((m ((c : Thread nD τ).loc main_arg0)) : S64x4096x3.Idx → EReal) (ix3 r n (1 : Fin 3)) := by
  obtain ⟨h0, h1⟩ := idx_w1 t
  unfold iblk
  rw [View.read_apply]
  show V m c main_v3 _ = _
  refine (congrArg (V m c main_v3) (?_ : _ = ix2 r n)).trans
    ((congrFun (V_x1_eq m c) (ix2 r n)).trans (chan_apply _ 1 _ (1 : Fin 3) rfl r n))
  funext a
  apply Fin.ext
  match a with
  | ⟨0, _⟩ => show win0_1.index t (0 : Fin 2) * 8 + 1 * p.val = r.val; rw [h0, hr]; omega
  | ⟨1, _⟩ => show win0_1.index t (1 : Fin 2) * 4096 + 1 * n.val = n.val; rw [h1]; omega

/-- Channel 2 as the region finds it: the slice of the argument at channel 2, its unit axis dropped. -/
theorem V_x2_eq (c : Dev nD) :
    (V m c main_v5 : S64x4096.Idx → EReal)
      = shapeCast S64x4096 (extractStridedSlice S64x4096x1 ![0, 0, 2] (m ((c : Thread nD τ).loc main_arg0)) slices_S64x4096x3_S64x4096x1_0_0_2) shapeCasts_S64x4096x1_S64x4096 := by
  dsimp only [Gen.V, Gen.hostOps0]; after_results; rfl

/-- Window 2's block at point `t`, at `(p, n)`, is the argument at batch row `8 t + p`, sample `n`, channel 2. -/
theorem iblk_x2 (c : Dev nD) (t : Fin cfg0.N) (p : Fin 8) (n : Fin 4096) (r : Fin 64) (hr : r.val = 8 * t.val + p.val) :
    (iblk m c 2 t : Vec Ideal S8x4096 .f32) (ix2 p n) = ((m ((c : Thread nD τ).loc main_arg0)) : S64x4096x3.Idx → EReal) (ix3 r n (2 : Fin 3)) := by
  obtain ⟨h0, h1⟩ := idx_w2 t
  unfold iblk
  rw [View.read_apply]
  show V m c main_v5 _ = _
  refine (congrArg (V m c main_v5) (?_ : _ = ix2 r n)).trans
    ((congrFun (V_x2_eq m c) (ix2 r n)).trans (chan_apply _ 2 _ (2 : Fin 3) rfl r n))
  funext a
  apply Fin.ext
  match a with
  | ⟨0, _⟩ => show win0_2.index t (0 : Fin 2) * 8 + 1 * p.val = r.val; rw [h0, hr]; omega
  | ⟨1, _⟩ => show win0_2.index t (1 : Fin 2) * 4096 + 1 * n.val = n.val; rw [h1]; omega

/-- Column 0 of `main_arg1` as the region finds it. -/
theorem V_c0_eq (c : Dev nD) :
    (V m c main_v6 : S64x1.Idx → EReal) = extractStridedSlice S64x1 ![0, 0] (m ((c : Thread nD τ).loc main_arg1)) slices_S64x2_S64x1_0_0 := by
  dsimp only [Gen.V, Gen.hostOps0]; after_results

/-- Window 3's block at every point is that column: entry `(e, 0)` is the argument at `(e, 0)`. -/
theorem iblk_c0 (c : Dev nD) (t : Fin cfg0.N) (e : Fin 64) :
    (iblk m c 3 t : Vec Ideal S64x1 .f32) (ix2 e (0 : Fin 1)) = ((m ((c : Thread nD τ).loc main_arg1)) : S64x2.Idx → EReal) (ix2 e (0 : Fin 2)) := by
  obtain ⟨h0, h1⟩ := idx_w3 t
  unfold iblk
  rw [View.read_apply]
  show V m c main_v6 _ = _
  refine (congrArg (V m c main_v6) (?_ : _ = ix2 e (0 : Fin 1))).trans
    ((congrFun (V_c0_eq m c) (ix2 e (0 : Fin 1))).trans (col_apply _ 0 _ (0 : Fin 2) rfl e))
  funext a
  apply Fin.ext
  match a with
  | ⟨0, _⟩ => show win0_3.index t (0 : Fin 2) * 64 + 1 * e.val = e.val; rw [h0]; omega
  | ⟨1, _⟩ => show win0_3.index t (1 : Fin 2) * 1 + 1 * 0 = 0; rw [h1]

/-- Column 1 of `main_arg1` as the region finds it. -/
theorem V_c1_eq (c : Dev nD) :
    (V m c main_v7 : S64x1.Idx → EReal) = extractStridedSlice S64x1 ![0, 1] (m ((c : Thread nD τ).loc main_arg1)) slices_S64x2_S64x1_0_1 := by
  dsimp only [Gen.V, Gen.hostOps0]; after_results

/-- Window 4's block at every point is that column: entry `(e, 0)` is the argument at `(e, 1)`. -/
theorem iblk_c1 (c : Dev nD) (t : Fin cfg0.N) (e : Fin 64) :
    (iblk m c 4 t : Vec Ideal S64x1 .f32) (ix2 e (0 : Fin 1)) = ((m ((c : Thread nD τ).loc main_arg1)) : S64x2.Idx → EReal) (ix2 e (1 : Fin 2)) := by
  obtain ⟨h0, h1⟩ := idx_w4 t
  unfold iblk
  rw [View.read_apply]
  show V m c main_v7 _ = _
  refine (congrArg (V m c main_v7) (?_ : _ = ix2 e (0 : Fin 1))).trans
    ((congrFun (V_c1_eq m c) (ix2 e (0 : Fin 1))).trans (col_apply _ 1 _ (1 : Fin 2) rfl e))
  funext a
  apply Fin.ext
  match a with
  | ⟨0, _⟩ => show win0_4.index t (0 : Fin 2) * 64 + 1 * e.val = e.val; rw [h0]; omega
  | ⟨1, _⟩ => show win0_4.index t (1 : Fin 2) * 1 + 1 * 0 = 0; rw [h1]

/-- Column 0 of `main_arg2` as the region finds it. -/
theorem V_s0_eq (c : Dev nD) :
    (V m c main_v8 : S64x1.Idx → EReal) = extractStridedSlice S64x1 ![0, 0] (m ((c : Thread nD τ).loc main_arg2)) slices_S64x2_S64x1_0_0 := by
  dsimp only [Gen.V, Gen.hostOps0]; after_results

/-- Window 5's block at every point is that column: entry `(e, 0)` is the argument at `(e, 0)`. -/
theorem iblk_s0 (c : Dev nD) (t : Fin cfg0.N) (e : Fin 64) :
    (iblk m c 5 t : Vec Ideal S64x1 .f32) (ix2 e (0 : Fin 1)) = ((m ((c : Thread nD τ).loc main_arg2)) : S64x2.Idx → EReal) (ix2 e (0 : Fin 2)) := by
  obtain ⟨h0, h1⟩ := idx_w5 t
  unfold iblk
  rw [View.read_apply]
  show V m c main_v8 _ = _
  refine (congrArg (V m c main_v8) (?_ : _ = ix2 e (0 : Fin 1))).trans
    ((congrFun (V_s0_eq m c) (ix2 e (0 : Fin 1))).trans (col_apply _ 0 _ (0 : Fin 2) rfl e))
  funext a
  apply Fin.ext
  match a with
  | ⟨0, _⟩ => show win0_5.index t (0 : Fin 2) * 64 + 1 * e.val = e.val; rw [h0]; omega
  | ⟨1, _⟩ => show win0_5.index t (1 : Fin 2) * 1 + 1 * 0 = 0; rw [h1]

/-- Column 1 of `main_arg2` as the region finds it. -/
theorem V_s1_eq (c : Dev nD) :
    (V m c main_v9 : S64x1.Idx → EReal) = extractStridedSlice S64x1 ![0, 1] (m ((c : Thread nD τ).loc main_arg2)) slices_S64x2_S64x1_0_1 := by
  dsimp only [Gen.V, Gen.hostOps0]; after_results

/-- Window 6's block at every point is that column: entry `(e, 0)` is the argument at `(e, 1)`. -/
theorem iblk_s1 (c : Dev nD) (t : Fin cfg0.N) (e : Fin 64) :
    (iblk m c 6 t : Vec Ideal S64x1 .f32) (ix2 e (0 : Fin 1)) = ((m ((c : Thread nD τ).loc main_arg2)) : S64x2.Idx → EReal) (ix2 e (1 : Fin 2)) := by
  obtain ⟨h0, h1⟩ := idx_w6 t
  unfold iblk
  rw [View.read_apply]
  show V m c main_v9 _ = _
  refine (congrArg (V m c main_v9) (?_ : _ = ix2 e (0 : Fin 1))).trans
    ((congrFun (V_s1_eq m c) (ix2 e (0 : Fin 1))).trans (col_apply _ 1 _ (1 : Fin 2) rfl e))
  funext a
  apply Fin.ext
  match a with
  | ⟨0, _⟩ => show win0_6.index t (0 : Fin 2) * 64 + 1 * e.val = e.val; rw [h0]; omega
  | ⟨1, _⟩ => show win0_6.index t (1 : Fin 2) * 1 + 1 * 0 = 0; rw [h1]

/-! ## What a point writes back, and the result array -/

/-- The result array the kernel ends with: the specification's function of the three arguments as launched. -/
abbrev result (c : Dev nD) : FVec Ideal S64x64 .f32 :=
  Cert.Rbf.rbf (m ((c : Thread nD τ).loc main_arg0)) (m ((c : Thread nD τ).loc main_arg1)) (m ((c : Thread nD τ).loc main_arg2))

/-- Entry `(p, e)` of the block point `t` leaves is the specification at batch row `8 t + p` and element `e`. -/
theorem point_apply (c : Dev nD) (t : Fin cfg0.N) (p : Fin 8) (e : Fin 64) (r : Fin 64) (hr : r.val = 8 * t.val + p.val) :
    out0_7 (F := Ideal) (iblk m c 0 t) (iblk m c 1 t) (iblk m c 2 t) (iblk m c 3 t) (iblk m c 4 t) (iblk m c 5 t) (iblk m c 6 t) (ix2 p e)
      = Cert.Rbf.rbfAt (m ((c : Thread nD τ).loc main_arg0)) (m ((c : Thread nD τ).loc main_arg1)) (m ((c : Thread nD τ).loc main_arg2)) r e := by
  refine (block_apply (iblk m c 0 t) (iblk m c 1 t) (iblk m c 2 t) (iblk m c 3 t) (iblk m c 4 t) (iblk m c 5 t) (iblk m c 6 t) p e).trans ?_
  unfold Cert.Rbf.rbfAt
  refine Finset.sum_congr rfl fun n _ => ?_
  rw [iblk_c0 m c t e, iblk_c1 m c t e, iblk_s0 m c t e, iblk_s1 m c t e, iblk_x0 m c t p n r hr, iblk_x1 m c t p n r hr, iblk_x2 m c t p n r hr]

/-- WHAT POINT `t` WRITES BACK is block `t` of the result. -/
theorem flushed_eq (c : Dev nD) (t : Fin cfg0.N) :
    (dats m 0 c).flushed 7 t = ((cfg0.win 7).blk t).view.read (Elt Ideal) (result m c) := by
  obtain ⟨h0, h1⟩ := idx_w7 t
  rw [Value.flushed7]
  funext y
  rw [View.read_apply]
  have ht : t.val < 8 := lt_of_lt_of_eq t.isLt N_0
  have hy0 : (y 0).val < 8 := (y 0).isLt
  have hemb : ((cfg0.win 7).blk t).view.emb y = ix2 (⟨8 * t.val + (y 0).val, by omega⟩ : Fin 64) (y 1) := by
    funext a
    apply Fin.ext
    match a with
    | ⟨0, _⟩ => show win0_7.index t (0 : Fin 2) * 8 + 1 * (y 0).val = 8 * t.val + (y 0).val; rw [h0]; omega
    | ⟨1, _⟩ => show win0_7.index t (1 : Fin 2) * 64 + 1 * (y 1).val = (y 1).val; rw [h1]; omega
  rw [hemb]
  exact (congrArg _ (eq_ix2 y)).trans (point_apply m c t (y 0) (y 1) _ rfl)

/-- An index of the result is in point `t`'s block iff each coordinate is in the block's range on its axis. -/
theorem mem_blk (t : Fin cfg0.N) (i : S64x64.Idx) :
    i ∈ ((cfg0.win 7).blk t).view.set ↔ ∀ a : Fin 2, win0_7.index t a * S8x64.size a ≤ (i a).val ∧ (i a).val < win0_7.index t a * S8x64.size a + S8x64.size a := by
  show i ∈ ((View.whole main_v10).slice (win0_7.rect t)).set ↔ _
  rw [View.set_slice_whole, Rect.mem_set_unit]
  exact Iff.rfl

/-- The eight blocks tile the result: row `r` is in the block of point `r / 8`. -/
theorem cover (i : S64x64.Idx) : ∃ t : Fin cfg0.N, (cfg0.win 7).flush t = true ∧ i ∈ ((cfg0.win 7).blk t).view.set := by
  have hi0 : (i 0).val < 64 := (i 0).isLt
  have hi1 : (i 1).val < 64 := (i 1).isLt
  let t : Fin cfg0.N := ⟨(i 0).val / 8, by rw [show cfg0.N = 8 from N_0]; omega⟩
  obtain ⟨h0, h1⟩ := idx_w7 t
  refine ⟨t, flush0_7 t, ?_⟩
  rw [mem_blk]
  intro a
  match a with
  | ⟨0, _⟩ =>
    show win0_7.index t (0 : Fin 2) * 8 ≤ (i 0).val ∧ (i 0).val < win0_7.index t (0 : Fin 2) * 8 + 8
    rw [h0]; show (i 0).val / 8 * 8 ≤ (i 0).val ∧ (i 0).val < (i 0).val / 8 * 8 + 8; omega
  | ⟨1, _⟩ =>
    show win0_7.index t (1 : Fin 2) * 64 ≤ (i 1).val ∧ (i 1).val < win0_7.index t (1 : Fin 2) * 64 + 64
    rw [h1]; omega

/-- THE RESULT ARRAY after the run is the specification's function of the arguments. -/
theorem final (c : Dev nD) : (dats m 0 c).arrAt 7 cfg0.N = result m c :=
  (dats m 0 c).arrAt_eq_of_cover 7 (result m c) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Region

end Cert.KernelIdeal.BlockValue

end
-- ==== Proof.RefRun.lean ====
/-
  The reference program's @main as the list of its 32 host operations, in order, and its run read back.

  The program squares the sharpnesses, centres the first two channels of every sample on every element, weights the
  squares, and sums the two weighted squares along the last axis through the outlined function `nansum` (a comparison of the terms with
  themselves, a select against a zero, a sum from zero: six operations, listed where the call stands, over the call's own
  buffers); squares the third channel under the same guard (`where`: three operations); adds, negates, exponentiates and
  sums along the samples. Every weakly fair execution terminates with each buffer at the operations' fold over the launch
  contents.
-/
import proofs.«100873_j34883724378859_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the three calls unfolded where they stand. -/
abbrev ops : List (HloOp τ sig (Elt F)) :=
  [ unary main_arg0 main_v0 ((extractStridedSlice S64x4096x2 ![0, 0, 0] · slices_S64x4096x3_S64x4096x2_0_0_0) : (⟨S64x4096x3, .f32⟩ : BufTy).Contents (Elt F) → (⟨S64x4096x2, .f32⟩ : BufTy).Contents (Elt F)),
    unary main_arg0 main_v1 ((extractStridedSlice S64x4096x1 ![0, 0, 2] · slices_S64x4096x3_S64x4096x1_0_0_2) : (⟨S64x4096x3, .f32⟩ : BufTy).Contents (Elt F) → (⟨S64x4096x1, .f32⟩ : BufTy).Contents (Elt F)),
    reshape main_v1 main_v2 rfl shapeCasts_S64x4096x1_S64x4096,
    binary main_arg2 main_arg2 main_v3 (mulf : (⟨S64x2, .f32⟩ : BufTy).Contents (Elt F) → (⟨S64x2, .f32⟩ : BufTy).Contents (Elt F) → (⟨S64x2, .f32⟩ : BufTy).Contents (Elt F)),
    unary main_arg1 main_v4 (broadcastInDim S1x64x1x2 ![1, 3] bcast_S64x2_S1x64x1x2_1_3 : (⟨S64x2, .f32⟩ : BufTy).Contents (Elt F) → (⟨S1x64x1x2, .f32⟩ : BufTy).Contents (Elt F)),
    unary main_v0 main_v5 (broadcastInDim S64x1x4096x2 ![0, 2, 3] bcast_S64x4096x2_S64x1x4096x2_0_2_3 : (⟨S64x4096x2, .f32⟩ : BufTy).Contents (Elt F) → (⟨S64x1x4096x2, .f32⟩ : BufTy).Contents (Elt F)),
    unary main_v4 main_v6 (broadcastInDim S64x64x4096x2 ![0, 1, 2, 3] bcast_S1x64x1x2_S64x64x4096x2_0_1_2_3 : (⟨S1x64x1x2, .f32⟩ : BufTy).Contents (Elt F) → (⟨S64x64x4096x2, .f32⟩ : BufTy).Contents (Elt F)),
    unary main_v5 main_v7 (broadcastInDim S64x64x4096x2 ![0, 1, 2, 3] bcast_S64x1x4096x2_S64x64x4096x2_0_1_2_3 : (⟨S64x1x4096x2, .f32⟩ : BufTy).Contents (Elt F) → (⟨S64x64x4096x2, .f32⟩ : BufTy).Contents (Elt F)),
    binary main_v6 main_v7 main_v8 (subf : (⟨S64x64x4096x2, .f32⟩ : BufTy).Contents (Elt F) → (⟨S64x64x4096x2, .f32⟩ : BufTy).Contents (Elt F) → (⟨S64x64x4096x2, .f32⟩ : BufTy).Contents (Elt F)),
    binary main_v8 main_v8 main_v9 (mulf : (⟨S64x64x4096x2, .f32⟩ : BufTy).Contents (Elt F) → (⟨S64x64x4096x2, .f32⟩ : BufTy).Contents (Elt F) → (⟨S64x64x4096x2, .f32⟩ : BufTy).Contents (Elt F)),
    unary main_v3 main_v10 (broadcastInDim S1x64x1x2 ![1, 3] bcast_S64x2_S1x64x1x2_1_3 : (⟨S64x2, .f32⟩ : BufTy).Contents (Elt F) → (⟨S1x64x1x2, .f32⟩ : BufTy).Contents (Elt F)),
    unary main_v10 main_v11 (broadcastInDim S64x64x4096x2 ![0, 1, 2, 3] bcast_S1x64x1x2_S64x64x4096x2_0_1_2_3 : (⟨S1x64x1x2, .f32⟩ : BufTy).Contents (Elt F) → (⟨S64x64x4096x2, .f32⟩ : BufTy).Contents (Elt F)),
    binary main_v9 main_v11 main_v12 (mulf : (⟨S64x64x4096x2, .f32⟩ : BufTy).Contents (Elt F) → (⟨S64x64x4096x2, .f32⟩ : BufTy).Contents (Elt F) → (⟨S64x64x4096x2, .f32⟩ : BufTy).Contents (Elt F)),
    TRef.binary (.of main_v12) (.of main_v12) main_call0.v0 (cmpf .une),
    TRef.nullary main_call0.cst (constant S_ .f32 0x00000000#32),
    TRef.unary main_call0.cst main_call0.call0.v0 (broadcastInDim S64x64x4096x2 ![] bcast_S_S64x64x4096x2),
    TRef.ternary main_call0.v0 main_call0.call0.v0 (.of main_v12) main_call0.call0.v1 select,
    TRef.nullary main_call0.cst_0 (constant S_ .f32 0x00000000#32),
    TRef.binary main_call0.call0.v1 main_call0.cst_0 main_call0.v2 (fun x v => Host.reduceAdd x v reducesTo_S64x64x4096x2_S64x64x4096_d3 h_S_),
    binary main_v2 main_v2 main_v14 (cmpf .une : (⟨S64x4096, .f32⟩ : BufTy).Contents (Elt F) → (⟨S64x4096, .f32⟩ : BufTy).Contents (Elt F) → (⟨S64x4096, .i1⟩ : BufTy).Contents (Elt F)),
    binary main_v2 main_v2 main_v15 (mulf : (⟨S64x4096, .f32⟩ : BufTy).Contents (Elt F) → (⟨S64x4096, .f32⟩ : BufTy).Contents (Elt F) → (⟨S64x4096, .f32⟩ : BufTy).Contents (Elt F)),
    nullary main_cst (constant S_ .f32 0x00000000#32),
    TRef.unary (.of main_cst) main_call1.v0 id,
    TRef.unary main_call1.v0 main_call1.v1 (broadcastInDim S64x4096 ![] bcast_S_S64x4096),
    TRef.ternary (.of main_v14) main_call1.v1 (.of main_v15) main_call1.v2 select,
    unary main_v16 main_v17 (broadcastInDim S64x1x4096 ![0, 2] bcast_S64x4096_S64x1x4096_0_2 : (⟨S64x4096, .f32⟩ : BufTy).Contents (Elt F) → (⟨S64x1x4096, .f32⟩ : BufTy).Contents (Elt F)),
    unary main_v17 main_v18 (broadcastInDim S64x64x4096 ![0, 1, 2] bcast_S64x1x4096_S64x64x4096_0_1_2 : (⟨S64x1x4096, .f32⟩ : BufTy).Contents (Elt F) → (⟨S64x64x4096, .f32⟩ : BufTy).Contents (Elt F)),
    binary main_v13 main_v18 main_v19 (addf : (⟨S64x64x4096, .f32⟩ : BufTy).Contents (Elt F) → (⟨S64x64x4096, .f32⟩ : BufTy).Contents (Elt F) → (⟨S64x64x4096, .f32⟩ : BufTy).Contents (Elt F)),
    unary main_v19 main_v20 (Host.negf : (⟨S64x64x4096, .f32⟩ : BufTy).Contents (Elt F) → (⟨S64x64x4096, .f32⟩ : BufTy).Contents (Elt F)),
    unary main_v20 main_v21 (Host.exp : (⟨S64x64x4096, .f32⟩ : BufTy).Contents (Elt F) → (⟨S64x64x4096, .f32⟩ : BufTy).Contents (Elt F)),
    nullary main_cst_0 (constant S_ .f32 0x00000000#32),
    binary main_v21 main_cst_0 main_v22 ((fun x v => Host.reduceAdd x v reducesTo_S64x64x4096_S64x64_d2 h_S_) : (⟨S64x64x4096, .f32⟩ : BufTy).Contents (Elt F) → (⟨S_, .f32⟩ : BufTy).Contents (Elt F) → (⟨S64x64, .f32⟩ : BufTy).Contents (Elt F)) ]

set_option maxRecDepth 1024 in
/-- @main is that straight line: the callees' bodies unfolded at their calls, sequencing reassociated. -/
theorem main_eq (c : Dev nD) : main (F := F) c = seq ops := by
  simp only [main, fn_nansum.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., ternary_bufs_sub .., nullary_bufs_sub .., binary_bufs_sub .., binary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., binary_bufs_sub ..⟩

/-- From any memory with zero counters every weakly fair execution of @main terminates, and every final state has each
    buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  What the reference computes, stage by stage, and each stage read at an index.

  `wsq` is the 64 x 64 x 4096 x 2 array of weighted squares `(c[e,k] - x[b,n,k])^2 * s[e,k]^2`; `qsum` sums it along
  the last axis (through a guard that replaces a term unequal to itself by zero: on the extended reals no term is
  unequal to itself, so the guard keeps every term); `zsq` is the third channel's square under the same guard; `refOut`
  adds the two, negates, exponentiates and sums along the samples. At batch row `b` and element `e` that is
  `Cert.Rbf.rbfAt`.
-/
import proofs.«100873_j34883724378859_1_alg».proof.Proof.RefRun
import proofs.«100873_j34883724378859_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx

variable {F : FTy → Type} [FloatOps F]

/-- An element-indexed pair `[64, 2]` laid along axes 1 and 3 of the `[64, 64, 4096, 2]` array. -/
def perElement (v : FVec F S64x2 .f32) : FVec F S64x64x4096x2 .f32 :=
  broadcastInDim S64x64x4096x2 ![0, 1, 2, 3] bcast_S1x64x1x2_S64x64x4096x2_0_1_2_3
    (broadcastInDim S1x64x1x2 ![1, 3] bcast_S64x2_S1x64x1x2_1_3 v)

/-- The first two channels of every sample laid along axes 0, 2 and 3 of the `[64, 64, 4096, 2]` array. -/
def perSample (x : FVec F S64x4096x3 .f32) : FVec F S64x64x4096x2 .f32 :=
  broadcastInDim S64x64x4096x2 ![0, 1, 2, 3] bcast_S64x1x4096x2_S64x64x4096x2_0_1_2_3
    (broadcastInDim S64x1x4096x2 ![0, 2, 3] bcast_S64x4096x2_S64x1x4096x2_0_2_3
      (extractStridedSlice S64x4096x2 ![0, 0, 0] x slices_S64x4096x3_S64x4096x2_0_0_0))

/-- The centred differences. -/
def diff (x : FVec F S64x4096x3 .f32) (cen : FVec F S64x2 .f32) : FVec F S64x64x4096x2 .f32 :=
  subf (perElement cen) (perSample x)

/-- The weighted squares. -/
def wsq (x : FVec F S64x4096x3 .f32) (cen shp : FVec F S64x2 .f32) : FVec F S64x64x4096x2 .f32 :=
  mulf (mulf (diff x cen) (diff x cen)) (perElement (mulf shp shp))

/-- Their sum along the last axis, each term guarded against being unequal to itself. -/
def qsum (x : FVec F S64x4096x3 .f32) (cen shp : FVec F S64x2 .f32) : FVec F S64x64x4096 .f32 :=
  Host.reduceAdd
    (select (cmpf .une (wsq x cen shp) (wsq x cen shp))
      (broadcastInDim S64x64x4096x2 ![] bcast_S_S64x64x4096x2 (constant (F := F) S_ .f32 0x00000000#32)) (wsq x cen shp))
    (constant (F := F) S_ .f32 0x00000000#32) reducesTo_S64x64x4096x2_S64x64x4096_d3 h_S_

/-- The third channel as a `[64, 4096]` array. -/
def zchan (x : FVec F S64x4096x3 .f32) : FVec F S64x4096 .f32 :=
  shapeCast S64x4096 (extractStridedSlice S64x4096x1 ![0, 0, 2] x slices_S64x4096x3_S64x4096x1_0_0_2) shapeCasts_S64x4096x1_S64x4096

/-- Its square, guarded the same way. -/
def zsq (x : FVec F S64x4096x3 .f32) : FVec F S64x4096 .f32 :=
  select (cmpf .une (zchan x) (zchan x))
    (broadcastInDim S64x4096 ![] bcast_S_S64x4096 (id (constant (F := F) S_ .f32 0x00000000#32))) (mulf (zchan x) (zchan x))

/-- The exponent's magnitude at every batch row, element and sample. -/
def expo (x : FVec F S64x4096x3 .f32) (cen shp : FVec F S64x2 .f32) : FVec F S64x64x4096 .f32 :=
  addf (qsum x cen shp)
    (broadcastInDim S64x64x4096 ![0, 1, 2] bcast_S64x1x4096_S64x64x4096_0_1_2
      (broadcastInDim S64x1x4096 ![0, 2] bcast_S64x4096_S64x1x4096_0_2 (zsq x)))

/-- The reference's result. -/
def refOut (x : FVec F S64x4096x3 .f32) (cen shp : FVec F S64x2 .f32) : FVec F S64x64 .f32 :=
  Host.reduceAdd (Host.exp (Host.negf (expo x cen shp))) (constant (F := F) S_ .f32 0x00000000#32)
    reducesTo_S64x64x4096_S64x64_d2 h_S_

attribute [local irreducible] Host.reduceAdd broadcastInDim extractStridedSlice shapeCast select cmpf mulf subf addf Host.negf Host.exp constant in
set_option maxRecDepth 8192 in
/-- The fold of the operations at the result buffer is `refOut` of the argument buffers: each operation's result is read
    where it was written, the calls' typed references being the literal buffers. -/
theorem out_eq (V : Valuation τ sig (Elt F)) :
    after ops V (main_v22 : DevRef τ sig)
      = refOut (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

/-- The run with its result named: the result buffer ends at `refOut` of the launch contents of the arguments, which are
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (out_eq _), (h c main_arg0).trans (arg0_eq _),
      (h c main_arg1).trans (arg1_eq _), (h c main_arg2).trans (arg2_eq _)⟩)
    (run_all m ρ)

/-! ## The stages at an index, at the extended reals -/

/-- The element-indexed pair at `(b, e, n, k)` is its entry `(e, k)`. -/
theorem perElement_apply (v : FVec Ideal S64x2 .f32) (b e : Fin 64) (n : Fin 4096) (k : Fin 2) :
    perElement (F := Ideal) v (ix4 b e n k) = v (ix2 e k) := by
  unfold perElement
  refine (broadcastInDim_apply _ _ _ (ix4 b e n k) (ix4 (0 : Fin 1) e (0 : Fin 1) k) fun a => ?_).trans ?_
  · match a with | ⟨0, _⟩ => rfl | ⟨1, _⟩ => rfl | ⟨2, _⟩ => rfl | ⟨3, _⟩ => rfl
  · refine broadcastInDim_apply _ _ _ _ (ix2 e k) fun a => ?_
    match a with | ⟨0, _⟩ => rfl | ⟨1, _⟩ => rfl

/-- The samples' first two channels at `(b, e, n, k)` are the argument at `(b, n, k)`. -/
theorem perSample_apply (x : FVec Ideal S64x4096x3 .f32) (b e : Fin 64) (n : Fin 4096) (k : Fin 2) (k3 : Fin 3) (hk3 : k3.val = k.val) :
    perSample (F := Ideal) x (ix4 b e n k) = x (ix3 b n k3) := by
  unfold perSample
  refine (broadcastInDim_apply _ _ _ (ix4 b e n k) (ix4 b (0 : Fin 1) n k) fun a => ?_).trans ?_
  · match a with | ⟨0, _⟩ => rfl | ⟨1, _⟩ => rfl | ⟨2, _⟩ => rfl | ⟨3, _⟩ => rfl
  refine (broadcastInDim_apply _ _ _ (ix4 b (0 : Fin 1) n k) (ix3 b n k) fun a => ?_).trans ?_
  · match a with | ⟨0, _⟩ => rfl | ⟨1, _⟩ => rfl | ⟨2, _⟩ => rfl
  refine extractStridedSlice_apply _ x _ (ix3 b n k) (ix3 b n k3) fun a => ?_
  match a with
  | ⟨0, _⟩ => show b.val = 0 + b.val; omega
  | ⟨1, _⟩ => show n.val = 0 + n.val; omega
  | ⟨2, _⟩ => show k3.val = 0 + k.val; omega

/-- The third channel at `(b, n)`. -/
theorem zchan_apply (x : FVec Ideal S64x4096x3 .f32) (b : Fin 64) (n : Fin 4096) :
    zchan (F := Ideal) x (ix2 b n) = x (ix3 b n (2 : Fin 3)) := by
  unfold zchan
  refine (shapeCast_apply _ _ (ix2 b n) (ix3 b n (0 : Fin 1)) ?_).trans ?_
  · rw [Shape.rowMajor_val_three, Shape.rowMajor_val_two]
    show (b.val * 4096 + n.val) * 1 + 0 = b.val * 4096 + n.val
    omega
  refine extractStridedSlice_apply _ x _ (ix3 b n (0 : Fin 1)) (ix3 b n (2 : Fin 3)) fun a => ?_
  match a with
  | ⟨0, _⟩ => show b.val = 0 + b.val; omega
  | ⟨1, _⟩ => show n.val = 0 + n.val; omega
  | ⟨2, _⟩ => rfl

/-- No extended real is unequal to itself, so the guard keeps the value. -/
theorem guard_apply {s : Shape} (v w : FVec Ideal s .f32) (i : s.Idx) : select (cmpf .une v v) w v i = v i := by
  rw [select_apply, cmpf_apply]
  have h0 : FloatOps.cmpf (F := Ideal) .une (v i) (v i) = 0#1 := by
    show Ideal.cmp .une (v i) (v i) = 0#1
    unfold Ideal.cmp
    simp
  rw [h0, select_zero]

/-- A weighted square at `(b, e, n, k)`. -/
theorem wsq_apply (x : FVec Ideal S64x4096x3 .f32) (cen shp : FVec Ideal S64x2 .f32) (b e : Fin 64) (n : Fin 4096) (k : Fin 2)
    (k3 : Fin 3) (hk3 : k3.val = k.val) :
    wsq (F := Ideal) x cen shp (ix4 b e n k)
      = (cen (ix2 e k) - x (ix3 b n k3)) * (cen (ix2 e k) - x (ix3 b n k3)) * (shp (ix2 e k) * shp (ix2 e k)) := by
  unfold wsq diff
  rw [mulf_apply, mulf_apply, subf_apply, perElement_apply, perSample_apply x b e n k k3 hk3, perElement_apply, mulf_apply]

/-- The sum of the two weighted squares at `(b, e, n)`, started from zero. -/
theorem qsum_apply (x : FVec Ideal S64x4096x3 .f32) (cen shp : FVec Ideal S64x2 .f32) (b e : Fin 64) (n : Fin 4096) :
    qsum (F := Ideal) x cen shp (ix3 b e n)
      = 0 + ((cen (ix2 e (0 : Fin 2)) - x (ix3 b n (0 : Fin 3))) * (cen (ix2 e (0 : Fin 2)) - x (ix3 b n (0 : Fin 3))) * (shp (ix2 e (0 : Fin 2)) * shp (ix2 e (0 : Fin 2)))
          + (cen (ix2 e (1 : Fin 2)) - x (ix3 b n (1 : Fin 3))) * (cen (ix2 e (1 : Fin 2)) - x (ix3 b n (1 : Fin 3))) * (shp (ix2 e (1 : Fin 2)) * shp (ix2 e (1 : Fin 2)))) := by
  unfold qsum
  have hR : S64x64x4096x2.Reduces [(3 : Fin 4)] S64x64x4096 := by decide
  refine (Ideal.hostReduceAdd_single reducesTo_S64x64x4096x2_S64x64x4096_d3 hR _ _ (ix3 b e n)).trans ?_
  have hl : ∀ k : Fin 2, hR.lift (ix3 b e n) k = ix4 b e n k := fun k =>
    funext fun a => Fin.ext (by match a with | ⟨0, _⟩ => rfl | ⟨1, _⟩ => rfl | ⟨2, _⟩ => rfl | ⟨3, _⟩ => rfl)
  show Ideal.ofBits .f32 0x00000000#32 + ∑ k : Fin 2, _ = _
  rw [Fin.sum_univ_two, Ideal.ofBits_zero_f32, hl, hl, guard_apply, guard_apply,
    wsq_apply x cen shp b e n 0 0 rfl, wsq_apply x cen shp b e n 1 1 rfl]

/-- The guarded square of the third channel at `(b, n)`. -/
theorem zsq_apply (x : FVec Ideal S64x4096x3 .f32) (b : Fin 64) (n : Fin 4096) :
    zsq (F := Ideal) x (ix2 b n) = x (ix3 b n (2 : Fin 3)) * x (ix3 b n (2 : Fin 3)) := by
  unfold zsq
  rw [select_apply, cmpf_apply, mulf_apply, zchan_apply]
  have h0 : FloatOps.cmpf (F := Ideal) .une (x (ix3 b n (2 : Fin 3))) (x (ix3 b n (2 : Fin 3))) = 0#1 := by
    show Ideal.cmp .une _ _ = 0#1
    unfold Ideal.cmp
    simp
  rw [h0, select_zero]

/-- The exponent's magnitude at `(b, e, n)`. -/
theorem expo_apply (x : FVec Ideal S64x4096x3 .f32) (cen shp : FVec Ideal S64x2 .f32) (b e : Fin 64) (n : Fin 4096) :
    expo (F := Ideal) x cen shp (ix3 b e n)
      = (0 + ((cen (ix2 e (0 : Fin 2)) - x (ix3 b n (0 : Fin 3))) * (cen (ix2 e (0 : Fin 2)) - x (ix3 b n (0 : Fin 3))) * (shp (ix2 e (0 : Fin 2)) * shp (ix2 e (0 : Fin 2)))
          + (cen (ix2 e (1 : Fin 2)) - x (ix3 b n (1 : Fin 3))) * (cen (ix2 e (1 : Fin 2)) - x (ix3 b n (1 : Fin 3))) * (shp (ix2 e (1 : Fin 2)) * shp (ix2 e (1 : Fin 2)))))
        + x (ix3 b n (2 : Fin 3)) * x (ix3 b n (2 : Fin 3)) := by
  unfold expo
  rw [addf_apply, qsum_apply]
  congr 1
  refine (broadcastInDim_apply _ _ _ (ix3 b e n) (ix3 b (0 : Fin 1) n) fun a => ?_).trans ?_
  · match a with | ⟨0, _⟩ => rfl | ⟨1, _⟩ => rfl | ⟨2, _⟩ => rfl
  refine (broadcastInDim_apply _ _ _ (ix3 b (0 : Fin 1) n) (ix2 b n) fun a => ?_).trans ?_
  · match a with | ⟨0, _⟩ => rfl | ⟨1, _⟩ => rfl
  exact zsq_apply x b n

/-- THE REFERENCE'S RESULT at batch row `b` and element `e` is the specification's: the sum over the samples, started from
    zero, of the exponential of the negated exponent. -/
theorem refOut_apply (x : FVec Ideal S64x4096x3 .f32) (cen shp : FVec Ideal S64x2 .f32) (b e : Fin 64) :
    refOut (F := Ideal) x cen shp (ix2 b e) = Cert.Rbf.rbfAt x cen shp b e := by
  unfold refOut Cert.Rbf.rbfAt
  have hR : S64x64x4096.Reduces [(2 : Fin 3)] S64x64 := by decide
  refine (Ideal.hostReduceAdd_single reducesTo_S64x64x4096_S64x64_d2 hR _ _ (ix2 b e)).trans ?_
  show Ideal.ofBits .f32 0x00000000#32 + ∑ n : Fin 4096, _ = _
  rw [Ideal.ofBits_zero_f32, zero_add]
  refine Finset.sum_congr rfl fun n _ => ?_
  have hl : hR.lift (ix2 b e) n = ix3 b e n :=
    funext fun a => Fin.ext (by match a with | ⟨0, _⟩ => rfl | ⟨1, _⟩ => rfl | ⟨2, _⟩ => rfl)
  rw [hl]
  show Ideal.exp (-(expo (F := Ideal) x cen shp (ix3 b e n))) = _
  rw [expo_apply]
  exact Cert.Rbf.term_of_neg _ _ _ _ _ _ _

/-- So the reference's result array is the specification's. -/
theorem refOut_eq (x : FVec Ideal S64x4096x3 .f32) (cen shp : FVec Ideal S64x2 .f32) :
    refOut (F := Ideal) x cen shp = Cert.Rbf.rbf x cen shp := by
  funext j
  rw [eq_ix2 j]
  exact refOut_apply x cen shp (j 0) (j 1)

end Cert.ReferenceIdeal.RefValue

end
-- ==== Proof.lean ====
/-
  The kernel and its reference compute one function of their three arguments, over the extended reals.

  For samples `x : [64, 4096, 3]`, centres `c : [64, 2]` and sharpnesses `s : [64, 2]` the result at batch row `b` and
  element `e` is
      sum over the 4096 samples n of  exp (-((c[e,0] - x[b,n,0])^2 * s[e,0]^2 + (c[e,1] - x[b,n,1])^2 * s[e,1]^2 + x[b,n,2]^2))
  (`Cert.Rbf.rbf`, Proof/Spec.lean). The kernel splits the three channels and the four columns on the host, walks the batch
  rows eight at a time, and for each row forms the 64 x 4096 matrix of exponents, exponentiates and sums along the
  samples (Proof/KernelRow.lean: one row at an index; Proof/KernelBlocks.lean: the blocks the eight grid points read and write,
  and the result array they tile). The reference broadcasts everything to `[64, 64, 4096, 2]`, sums the two weighted
  squares through a guard that no extended real triggers, adds the third channel's square and sums along the samples
  (Proof/RefRun.lean: its operations and their run; Proof/RefValue.lean: each stage at an index). The two spellings differ
  only by zeros added on the left and by `0 - q` against `-q`, which agree on every extended real, so the equality holds
  for all inputs and the precondition is not used. The idealization rewrote no operation, so `preserves` is `True`.
-/
import proofs.«100873_j34883724378859_1_alg».proof.Defs
import proofs.«100873_j34883724378859_1_alg».proof.Proof.Gen.Kernel
import proofs.«100873_j34883724378859_1_alg».proof.Proof.Gen.Kernel.Skeleton
import proofs.«100873_j34883724378859_1_alg».proof.Proof.Gen.Kernel.Launch
import proofs.«100873_j34883724378859_1_alg».proof.Proof.Gen.Kernel.Points
import proofs.«100873_j34883724378859_1_alg».proof.Proof.Gen.Kernel.Frame
import proofs.«100873_j34883724378859_1_alg».proof.Proof.Gen.KernelIdeal
import proofs.«100873_j34883724378859_1_alg».proof.Proof.Gen.KernelIdeal.Skeleton
import proofs.«100873_j34883724378859_1_alg».proof.Proof.Gen.KernelIdeal.Launch
import proofs.«100873_j34883724378859_1_alg».proof.Proof.Gen.KernelIdeal.Points
import proofs.«100873_j34883724378859_1_alg».proof.Proof.Gen.KernelIdeal.Frame
import proofs.«100873_j34883724378859_1_alg».proof.Proof.Gen.KernelIdeal.Value
import proofs.«100873_j34883724378859_1_alg».proof.Proof.Gen.ReferenceIdeal
import proofs.«100873_j34883724378859_1_alg».proof.Proof.Gen.Pre_finite_inputs
import proofs.«100873_j34883724378859_1_alg».proof.Proof.KernelBlocks
import proofs.«100873_j34883724378859_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- From memories agreeing on the arguments both programs end with the result array at the specification's function of
    the arguments: the kernel by the tiling of its eight blocks, the reference stage by stage. -/
theorem algebraic : Cert.algebraic_KernelIdeal_ReferenceIdeal := by
  intro m ρ m' ρ' _ hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2]
  exact Cert.ReferenceIdeal.RefValue.refOut_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
